-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S32768x1024 : Shape := ⟨2, ![32768, 1024]⟩
abbrev S524288 : Shape := ⟨1, ![524288]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S128x1024 .f32) (main_arg1 : FVec F S32768x1024 .f32) (main_arg2 : IVec S524288 32) (main_arg3 : IVec S524288 32) (main_arg4 : FVec F S524288 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S524288 .f32 := Host.absf main_arg4
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  main_v13
-- ==== Kernel.lean ====
abbrev S128x1024 : Shape := ⟨2, ![128, 1024]⟩
abbrev S32768x1024 : Shape := ⟨2, ![32768, 1024]⟩
abbrev S524288 : Shape := ⟨1, ![524288]⟩
abbrev S32768x128 : Shape := ⟨2, ![32768, 128]⟩
abbrev S_ : Shape := ⟨0, ![]⟩
abbrev S524288x1 : Shape := ⟨2, ![524288, 1]⟩
abbrev S524288x128 : Shape := ⟨2, ![524288, 128]⟩
abbrev S128x32768 : Shape := ⟨2, ![128, 32768]⟩
abbrev S2048x1024 : Shape := ⟨2, ![2048, 1024]⟩
abbrev S2048x128 : Shape := ⟨2, ![2048, 128]⟩

abbrev nBuf : Space → Nat
  | .hbm => 25
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S32768x1024, .f32⟩
  | .hbm, ⟨2, _⟩ => ⟨S524288, .i32⟩
  | .hbm, ⟨3, _⟩ => ⟨S524288, .i32⟩
  | .hbm, ⟨4, _⟩ => ⟨S524288, .f32⟩
  | .hbm, ⟨5, _⟩ => ⟨S128x1024, .bf16⟩
  | .hbm, ⟨6, _⟩ => ⟨S32768x128, .bf16⟩
  | .hbm, ⟨7, _⟩ => ⟨S_, .i32⟩
  | .hbm, ⟨8, _⟩ => ⟨S524288, .i32⟩
  | .hbm, ⟨9, _⟩ => ⟨S524288, .i1⟩
  | .hbm, ⟨10, _⟩ => ⟨S_, .i32⟩
  | .hbm, ⟨11, _⟩ => ⟨S524288, .i32⟩
  | .hbm, ⟨12, _⟩ => ⟨S524288, .i32⟩
  | .hbm, ⟨13, _⟩ => ⟨S524288, .i32⟩
  | .hbm, ⟨14, _⟩ => ⟨S524288x1, .i32⟩
  | .hbm, ⟨15, _⟩ => ⟨S524288x128, .bf16⟩
  | .hbm, ⟨16, _⟩ => ⟨S524288x128, .f32⟩
  | .hbm, ⟨17, _⟩ => ⟨S524288x1, .f32⟩
  | .hbm, ⟨18, _⟩ => ⟨S524288x128, .f32⟩
  | .hbm, ⟨19, _⟩ => ⟨S524288x128, .f32⟩
  | .hbm, ⟨20, _⟩ => ⟨S_, .f32⟩
  | .hbm, ⟨21, _⟩ => ⟨S32768x128, .f32⟩
  | .hbm, ⟨22, _⟩ => ⟨S524288x1, .i32⟩
  | .hbm, ⟨23, _⟩ => ⟨S32768x128, .f32⟩
  | .hbm, ⟨24, _⟩ => ⟨S128x32768, .f32⟩
  | .local _ .vmem, ⟨0, _⟩ => ⟨S128x1024, .bf16⟩
  | .local _ .vmem, ⟨1, _⟩ => ⟨S2048x1024, .f32⟩
  | .local _ .vmem, ⟨2, _⟩ => ⟨S2048x1024, .f32⟩
  | .local _ .vmem, ⟨3, _⟩ => ⟨S2048x128, .bf16⟩
  | .local _ .vmem, ⟨4, _⟩ => ⟨S2048x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S32768x128 : S_.BroadcastsInDim S32768x128 (![] : Fin 0 → Fin S32768x128.rank)
  transposes_S32768x128_S128x32768_1_0 : S32768x128.Transposes [1, 0] S128x32768
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2048x1024_S2048x1024_0_0 : ∀ a, (![0, 0] : Fin 2 → Nat) a + S2048x1024.size a ≤ S2048x1024.size a
  h_S2048x1024 : 0 < S2048x1024.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S2048x1024_S128x1024_S2048x128_1_1_0_0_n_n_wf : DotDims.WF S2048x1024 S128x1024 S2048x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .bf16 = 32 ∨ (Rect.block (s := S128x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .bf16 = 32 ∨ (Rect.block (s := S32768x128) S2048x128.size (cc0_transform_2 i) (hinb0_2 i)).WholeWords (EltTy.packing .bf16)

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev win0_0 : Pipeline.Window sig grid0 :=
  Pipeline.Window.ofSpec (Memref.whole main_call0_v0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S32768x1024 : Shape := ⟨2, ![32768, 1024]⟩
abbrev S524288 : Shape := ⟨1, ![524288]⟩
abbrev S128x32768 : Shape := ⟨2, ![128, 32768]⟩
abbrev S_ : Shape := ⟨0, ![]⟩
abbrev S524288x1 : Shape := ⟨2, ![524288, 1]⟩
abbrev S128x524288 : Shape := ⟨2, ![128, 524288]⟩
abbrev S1x524288 : Shape := ⟨2, ![1, 524288]⟩
abbrev S524288x128 : Shape := ⟨2, ![524288, 128]⟩
abbrev S32768x128 : Shape := ⟨2, ![32768, 128]⟩

abbrev nBuf : Space → Nat
  | .hbm => 24
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S32768x1024, .f32⟩
  | .hbm, ⟨2, _⟩ => ⟨S524288, .i32⟩
  | .hbm, ⟨3, _⟩ => ⟨S524288, .i32⟩
  | .hbm, ⟨4, _⟩ => ⟨S524288, .f32⟩
  | .hbm, ⟨5, _⟩ => ⟨S128x32768, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S128x524288, .f32⟩
  | .hbm, ⟨15, _⟩ => ⟨S1x524288, .f32⟩
  | .hbm, ⟨16, _⟩ => ⟨S128x524288, .f32⟩
  | .hbm, ⟨17, _⟩ => ⟨S128x524288, .f32⟩
  | .hbm, ⟨18, _⟩ => ⟨S524288x128, .f32⟩
  | .hbm, ⟨19, _⟩ => ⟨S_, .f32⟩
  | .hbm, ⟨20, _⟩ => ⟨S32768x128, .f32⟩
  | .hbm, ⟨21, _⟩ => ⟨S524288x1, .i32⟩
  | .hbm, ⟨22, _⟩ => ⟨S32768x128, .f32⟩
  | .hbm, ⟨23, _⟩ => ⟨S128x32768, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288_S1x524288_1 : S524288.BroadcastsInDim S1x524288 (![1] : Fin 1 → Fin S1x524288.rank)
  bcast_S1x524288_S128x524288_0_1 : S1x524288.BroadcastsInDim S128x524288 (![0, 1] : Fin 2 → Fin S128x524288.rank)
  transposes_S128x524288_S524288x128_1_0 : S128x524288.Transposes [1, 0] S524288x128
  bcast_S_S32768x128 : S_.BroadcastsInDim S32768x128 (![] : Fin 0 → Fin S32768x128.rank)
  transposes_S32768x128_S128x32768_1_0 : S32768x128.Transposes [1, 0] S128x32768
  dot_S128x1024_S32768x1024_S128x32768_1_1_0_0_n_n_wf : DotDims.WF S128x1024 S32768x1024 S128x32768 [1] [1] [0] [0] [] []
  gather_S128x32768_S524288x1_S128x524288_0_1_n_n_1_1_1281_wf : GatherDims.WF S128x32768 S524288x1 S128x524288 [0] [1] [] [1] [] 1 ![128, 1]
  scatter_S32768x128_S524288x1_S524288x128_1_0_0_1_wf : ScatterDims.WF S32768x128 S524288x1 S524288x128 [1] [0] [0] 1

variable [Facts₀]

def dot_S128x1024_S32768x1024_S128x32768_1_1_0_0_n_n : DotDims S128x1024 S32768x1024 S128x32768 where
  lhsContracting := [1]
  rhsContracting := [1]
  lhsNonContracting := [0]
  rhsNonContracting := [0]
  lhsBatch := []
  rhsBatch := []
  wf := dot_S128x1024_S32768x1024_S128x32768_1_1_0_0_n_n_wf
def gather_S128x32768_S524288x1_S128x524288_0_1_n_n_1_1_1281 : GatherDims S128x32768 S524288x1 S128x524288 where
  offsetDims := [0]
  collapsedSliceDims := [1]
  operandBatchingDims := []
  startIndicesBatchingDims := []
  startIndexMap := [1]
  indexVectorDim := 1
  sliceSizes := ![128, 1]
  wf := gather_S128x32768_S524288x1_S128x524288_0_1_n_n_1_1_1281_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf

class Facts : Prop extends Facts₀ where

variable [Facts]
-- ==== Proof.ProjBlock.lean ====
/-
  One grid point of the projection kernel, read at an element.

  The body loads the whole resident block of `x` ([128, 1024], already in bf16) and one tile of 2048 rows of
  `weight` ([2048, 1024]), narrows the tile to bf16, multiplies tile by `x` CONTRACTING THE FEATURE AXIS OF BOTH
  (so the product comes out as [2048, 128]: a node per row, a dense row of `x` per column), into a zero accumulator,
  and narrows the product to bf16. At the ideal values a change of float format is the identity and a matrix
  product into zero is the plain sum, so element `(p, q)` of what the body stores is
      Σ_k  tile[p, k] · x[q, k]      (k over the 1024 features).
-/
import proofs.«431387_j58128087384147_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Proj

open Cert.KernelIdeal Cert.KernelIdeal.Gen Idealize.ShloMosaic Idealize.ShloMosaic.ValueIdx

/-! ## The product's operand indices, axis by axis -/

/-- The tile is read at the output's row … -/
theorem lhs_proj_0 (i : S2048x128.Idx) (q : dot_S2048x1024_S128x1024_S2048x128_1_1_0_0_n_n.contr.Idx) :
    (dot_S2048x1024_S128x1024_S2048x128_1_1_0_0_n_n.lhsIdx i q 0).val = (i 0).val := by
  unfold DotDims.lhsIdx
  rw [dif_neg (show ¬(0 : Fin S2048x1024.rank) ∈ dot_S2048x1024_S128x1024_S2048x128_1_1_0_0_n_n.lhsBatch by decide), dif_pos (show (0 : Fin S2048x1024.rank) ∈ dot_S2048x1024_S128x1024_S2048x128_1_1_0_0_n_n.lhsNonContracting by decide)]
  rfl
/-- … and the contracted feature, -/
theorem lhs_proj_1 (i : S2048x128.Idx) (q : dot_S2048x1024_S128x1024_S2048x128_1_1_0_0_n_n.contr.Idx) :
    (dot_S2048x1024_S128x1024_S2048x128_1_1_0_0_n_n.lhsIdx i q 1).val = (q ⟨0, by decide⟩).val :=
  dot_S2048x1024_S128x1024_S2048x128_1_1_0_0_n_n.lhsIdx_val_of_single rfl i q
/-- `x` at the output's COLUMN (its own row axis is the product's second free axis) … -/
theorem rhs_proj_0 (i : S2048x128.Idx) (q : dot_S2048x1024_S128x1024_S2048x128_1_1_0_0_n_n.contr.Idx) :
    (dot_S2048x1024_S128x1024_S2048x128_1_1_0_0_n_n.rhsIdx i q 0).val = (i 1).val := by
  unfold DotDims.rhsIdx
  rw [dif_neg (show ¬(0 : Fin S128x1024.rank) ∈ dot_S2048x1024_S128x1024_S2048x128_1_1_0_0_n_n.rhsBatch by decide), dif_pos (show (0 : Fin S128x1024.rank) ∈ dot_S2048x1024_S128x1024_S2048x128_1_1_0_0_n_n.rhsNonContracting by decide)]
  rfl
/-- … and the same feature. -/
theorem rhs_proj_1 (i : S2048x128.Idx) (q : dot_S2048x1024_S128x1024_S2048x128_1_1_0_0_n_n.contr.Idx) :
    (dot_S2048x1024_S128x1024_S2048x128_1_1_0_0_n_n.rhsIdx i q 1).val = (q ⟨0, by decide⟩).val :=
  dot_S2048x1024_S128x1024_S2048x128_1_1_0_0_n_n.rhsIdx_val_of_single rfl i q

/-! ## The stored block at `(p, q)` -/

/-- What the body stores, at row `p` of the tile and dense row `q` of `x`: the sum over the features of the tile's
    entry times `x`'s. -/
theorem block_apply (xb : Vec Ideal S128x1024 .bf16) (wt : Vec Ideal S2048x1024 .f32) (p : Fin 2048) (q : Fin 128) :
    k0_pay1 (F := Ideal) xb wt (ix2 p q) = ∑ k : Fin 1024, wt (ix2 p k) * xb (ix2 q k) := by
  unfold k0_pay1
  simp only [matmul, shapeCast_self]
  refine (truncf_apply (ψ := .bf16) _ bitsLt_bf16_f32 _).trans ?_
  rw [Ideal.matmul_constant_zero_apply, ← Equiv.sum_comp (contrEquiv1 dot_S2048x1024_S128x1024_S2048x128_1_1_0_0_n_n 1024 rfl rfl).symm]
  refine Finset.sum_congr rfl fun k _ => ?_
  have hk := contrEquiv1_symm_val dot_S2048x1024_S128x1024_S2048x128_1_1_0_0_n_n 1024 rfl rfl k
  have el : dot_S2048x1024_S128x1024_S2048x128_1_1_0_0_n_n.lhsIdx (ix2 p q) ((contrEquiv1 dot_S2048x1024_S128x1024_S2048x128_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S2048x1024_S128x1024_S2048x128_1_1_0_0_n_n.rhsIdx (ix2 p q) ((contrEquiv1 dot_S2048x1024_S128x1024_S2048x128_1_1_0_0_n_n 1024 rfl rfl).symm k) = ix2 q k := funext fun a => Fin.ext (by
    match a with
    | ⟨0, _⟩ => exact rhs_proj_0 _ _
    | ⟨1, _⟩ => exact (rhs_proj_1 _ _).trans hk)
  rw [el, er]
  rfl

/-! ## The block as a piece of the whole projection -/

/-- The projection with a node per row: entry `(n, d)` is the inner product of `weight`'s row `n` with `x`'s row `d`. -/
def projT (xa : Vec Ideal S128x1024 .bf16) (wa : Vec Ideal S32768x1024 .f32) : Vec Ideal S32768x128 .bf16 :=
  fun i => ∑ k : Fin 1024, wa (ix2 (i 0) k) * xa (ix2 (i 1) k)

/-- If the tile's row `p` is row `i 0` of the whole `weight` and the resident block's row `q` is row `i 1` of the whole
    `x`, the stored block at `(p, q)` is the projection at `i`. -/
theorem block_is_proj (xb : Vec Ideal S128x1024 .bf16) (wt : Vec Ideal S2048x1024 .f32)
    (xa : Vec Ideal S128x1024 .bf16) (wa : Vec Ideal S32768x1024 .f32) (p : Fin 2048) (q : Fin 128) (i : S32768x128.Idx)
    (hw : ∀ k : Fin 1024, wt (ix2 p k) = wa (ix2 (i 0) k)) (hx : ∀ k : Fin 1024, xb (ix2 q k) = xa (ix2 (i 1) k)) :
    k0_pay1 (F := Ideal) xb wt (ix2 p q) = projT xa wa i := by
  rw [block_apply]
  unfold projT
  exact Finset.sum_congr rfl fun k _ => by rw [hw k, hx k]

end Cert.KernelIdeal.Proj

end
-- ==== Proof.ProjArray.lean ====
/-
  The projected array after the kernel has run over its sixteen grid points.

  The kernel walks `weight` in tiles of 2048 rows, point `t` taking rows `2048·t … 2048·t + 2047`, with `x` resident;
  point `t` writes back rows `2048·t …` of the output. A tile's row `p` is row `2048·t + p` of `weight` and the output
  block's row `p` is the same row of the output, so what each point writes is a block of ONE function of the whole
  arrays,
      yT[n, d] = Σ_k weight[n, k] · xb[d, k]      (n a node, d a dense row of x, k a feature),
  and the sixteen blocks tile the output: after the run it IS that function. `xb` is `x` as the region finds it —
  narrowed to bf16 by the one host operation before the region, which at the ideal values changes nothing.
-/
import proofs.«431387_j58128087384147_3_alg».proof.Proof.Gen.KernelIdeal.Frame
import proofs.«431387_j58128087384147_3_alg».proof.Proof.ProjBlock
import Idealize.ShloMosaic.Lib.Pipeline.Value
import Idealize.ShloMosaic.Lib.StableHlo.Run

set_option maxRecDepth 16384

noncomputable section

namespace Cert.KernelIdeal.Proj

open Cert.KernelIdeal Cert.KernelIdeal.Gen Idealize.ShloMosaic Idealize.ShloMosaic.TcCoe Idealize.ShloMosaic.ValueIdx
open Idealize.SL.Sem Idealize.ShloMosaic.Pipeline

variable (m : (ℓ : Loc nD τ sig) → Buf (Elt Ideal) ℓ)

theorem off_zero : (![0, 0] : Fin 2 → Nat) = fun _ => 0 := funext fun a => by fin_cases a <;> rfl

/-- The printed index maps over the grid: `x`'s window stays at block (0, 0); the weight's and the output's windows are
    both at block row `t`, block column 0. -/
theorem idx_facts : ∀ t : Fin cfg0.N, win0_0.index t (0 : Fin 2) = 0 ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 15 :=
  (by decide +kernel : ∀ t : Fin grid0.N, _)

/-- Every block row of the output is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- WHAT POINT `t` WRITES BACK is block `t` of the projection of the arrays as the region finds them. -/
theorem flushed_eq (c : Dev nD) (t : Fin cfg0.N) :
    (dats m 0 c).flushed 2 t = ((cfg0.win 2).blk t).view.read (Elt Ideal) (projT (V m c main_call0_v0) (V m c main_arg1)) := by
  show (cfg0.win 2).cut (grid0.coords t) ((dats m 0 c).after 2 t) = _
  rw [after0_2]
  unfold out0_2
  rw [View.canon_unit_zero off_zero]
  simp only [View.ld_unit_zero (S := S128x1024) off_zero, View.ld_unit_zero (S := S2048x1024) off_zero]
  obtain ⟨e0, e1, e2, e3, e4, e5⟩ := idx_facts t
  funext j
  obtain ⟨p, q, rfl⟩ : ∃ (p : Fin 2048) (q : Fin 128), j = ix2 p q := ⟨j 0, j 1, eq_ix2 j⟩
  have h1 : ∀ k : Fin 1024, ((cfg0.win 1).blk t).view.emb (ix2 p k) = ix2 ((((cfg0.win 2).blk t).view.emb (ix2 p q)) 0) k := fun k => by
    funext a; apply Fin.ext
    match a with
    | ⟨0, _⟩ => show win0_1.index t (0 : Fin 2) * 2048 + 1 * p.val = win0_2.index t (0 : Fin 2) * 2048 + 1 * p.val; omega
    | ⟨1, _⟩ => show win0_1.index t (1 : Fin 2) * 1024 + 1 * k.val = k.val; omega
  have h0 : ∀ k : Fin 1024, ((cfg0.win 0).blk t).view.emb (ix2 q k) = ix2 ((((cfg0.win 2).blk t).view.emb (ix2 p q)) 1) k := fun k => by
    funext a; apply Fin.ext
    match a with
    | ⟨0, _⟩ => show win0_0.index t (0 : Fin 2) * 128 + 1 * q.val = win0_2.index t (1 : Fin 2) * 128 + 1 * q.val; omega
    | ⟨1, _⟩ => show win0_0.index t (1 : Fin 2) * 1024 + 1 * k.val = k.val; omega
  exact block_is_proj (iblk m c 0 t) (iblk m c 1 t) (V m c main_call0_v0) (V m c main_arg1) p q
    (((cfg0.win 2).blk t).view.emb (ix2 p q)) (fun k => congrArg (V m c main_arg1) (h1 k)) (fun k => congrArg (V m c main_call0_v0) (h0 k))

/-- An index of the output is in point `t`'s block iff each coordinate is in the block's range on its axis. -/
theorem mem_blk (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_call0_v1).slice (win0_2.rect t)).set ↔ _
  rw [View.set_slice_whole, Rect.mem_set_unit]
  exact Iff.rfl

/-- The blocks tile the output: row `n` is in the block of the point at block row `n / 2048`. -/
theorem cover (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE OUTPUT ARRAY after the run is the projection of the arrays as the region finds them. -/
theorem final (c : Dev nD) : (dats m 0 c).arrAt 2 cfg0.N = projT (V m c main_call0_v0) (V m c main_arg1) :=
  (dats m 0 c).arrAt_eq_of_cover 2 _ (fun t _ => flushed_eq m c t) (cover)

/-- `x` as the region finds it: narrowed to bf16 by the host, which at the ideal values is `x` itself. -/
theorem xb_eq (c : Dev nD) : (V m c main_call0_v0 : S128x1024.Idx → Elt Ideal .bf16) = m ((c : Thread nD τ).loc main_arg0) := by
  show StableHlo.after hostOps0 (fun b => m (c, b)) (Proc.devRef .tc main_call0_v0) = _
  after_results
  rfl

end Cert.KernelIdeal.Proj

end
-- ==== Proof.Aggregate.lean ====
/-
  The sparse aggregation around the projection kernel, as pure functions of the arrays.

  Every edge `e` of the graph names a source node `rows[e]`, a destination node `cols[e]` and a weight `vals[e]`. The
  source index is taken modulo wrap-around for negatives (a negative index counts from the end: 32768 is added) and
  the gather clamps it into the node range. An edge contributes, for every dense row `d`,
      contrib[e, d] = yT[rows[e], d] · vals[e],
  where `yT` is the projection with a node per row. The contributions of the edges with the same destination are
  added into a zero array with a node per row, and the result is transposed to a dense row per row.
-/
import proofs.«431387_j58128087384147_3_alg».proof.Proof.ProjBlock

noncomputable section

namespace Cert.KernelIdeal.Proj

open Cert.KernelIdeal Cert.KernelIdeal.Facts₀ Idealize.ShloMosaic Idealize.ShloMosaic.ValueIdx

/-- The edges' source nodes as the gather's start indices: a negative index wrapped by the node count, one index per
    row of a one-column array. -/
def wrapRows (rows : IVec S524288 32) : IVec S524288x1 32 :=
  broadcastInDim S524288x1 ![0] bcast_S524288_S524288x1_0
    (select (cmpi .slt rows (broadcastInDim S524288 ![] bcast_S_S524288 (constantI S_ 32 0#32)))
      (addi rows (broadcastInDim S524288 ![] bcast_S_S524288 (constantI S_ 32 32768#32))) rows)

/-- Each edge's contribution: its source node's row of the projection, scaled by the edge's weight. -/
def contrib (yT : Vec Ideal S32768x128 .bf16) (rows : IVec S524288 32) (vals : Vec Ideal S524288 .f32) : FVec Ideal S524288x128 .f32 :=
  mulf (extf .f32 (Host.gather gather_S32768x128_S524288x1_S524288x128_1_0_n_n_0_1_1128 yT (wrapRows rows)) bitsLt_bf16_f32)
    (broadcastInDim S524288x128 ![0, 1] bcast_S524288x1_S524288x128_0_1 (broadcastInDim S524288x1 ![0] bcast_S524288_S524288x1_0 vals))

/-- The contributions summed by destination node into a zero array, then transposed. -/
def aggregate (u : FVec Ideal S524288x128 .f32) (cols : IVec S524288 32) : FVec Ideal S128x32768 .f32 :=
  transpose S128x32768 [1, 0]
    (Host.scatterAdd scatter_S32768x128_S524288x1_S524288x128_1_0_0_1
      (broadcastInDim S32768x128 ![] bcast_S_S32768x128 (constant (F := Ideal) S_ .f32 0x00000000#32))
      (broadcastInDim S524288x1 ![0] bcast_S524288_S524288x1_0 cols) u)
    transposes_S32768x128_S128x32768_1_0

end Cert.KernelIdeal.Proj

end
-- ==== Proof.ProjRun.lean ====
/-
  The kernel program's run, with its result named.

  After the region the program's remaining host operations read four arrays: the projection the kernel left (a node
  per row) and the three edge arrays. The projection is what the kernel's sixteen blocks tile; the edge arrays are no
  window of the kernel and no host operation writes them, so the tail finds them as launched. Applying the tail's
  operations to those four gives the program's result: the aggregation of the edges' contributions.
-/
import proofs.«431387_j58128087384147_3_alg».proof.Proof.ProjArray
import proofs.«431387_j58128087384147_3_alg».proof.Proof.Aggregate

noncomputable section

namespace Cert.KernelIdeal.Proj

open Cert.KernelIdeal Cert.KernelIdeal.Gen Idealize.ShloMosaic Idealize.ShloMosaic.TcCoe Idealize.ShloMosaic.ValueIdx
open Idealize.SL.Sem Idealize.ShloMosaic.Pipeline

variable (m : (ℓ : Loc nD τ sig) → Buf (Elt Ideal) ℓ) (ρ : Dev nD → PrngReg)

/-! What the host operations after the region find in a buffer is `Pipeline.withArrays … b`: a window's array as the
kernel left it, any other buffer as the region found it. -/

/-- The kernel's output window: the projection of `x` and `weight` as launched. -/
theorem found_proj (c : Dev nD) :
    Pipeline.withArrays (cfgs 0).spec c (V0 m c) (fun w => (dats m 0 c).arrAt w (cfgs 0).N) (Proc.devRef .tc main_call0_v1) = projT (m ((c.tc : Thread nD τ).loc main_arg0)) (m ((c.tc : Thread nD τ).loc main_arg1)) :=
  (Pipeline.withArrays_arr spec0 launch0.win.arr_inj c _ _ 2).trans ((final m c).trans (by rw [xb_eq, V_main_arg1]))

/-- The edges' source nodes, as launched. -/
theorem found_rows (c : Dev nD) : Pipeline.withArrays (cfgs 0).spec c (V0 m c) (fun w => (dats m 0 c).arrAt w (cfgs 0).N) (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
/-- Their destination nodes, as launched. -/
theorem found_cols (c : Dev nD) : Pipeline.withArrays (cfgs 0).spec c (V0 m c) (fun w => (dats m 0 c).arrAt w (cfgs 0).N) (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
/-- Their weights, as launched. -/
theorem found_vals (c : Dev nD) : Pipeline.withArrays (cfgs 0).spec c (V0 m c) (fun w => (dats m 0 c).arrAt w (cfgs 0).N) (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)

set_option maxHeartbeats 2000000 in
/-- THE RESULT the host tail computes: the aggregation over the projection the kernel left. -/
theorem tail_eq (c : Dev nD) :
    Pipeline.afterTail₀ cfgs (dats m) 0 (V0 m) [hostOps1] c main_v0
      = aggregate (contrib (projT (m ((c.tc : Thread nD τ).loc main_arg0)) (m ((c.tc : Thread nD τ).loc main_arg1)))
          (m ((c.tc : Thread nD τ).loc main_arg2)) (m ((c.tc : Thread nD τ).loc main_arg4))) (m ((c.tc : Thread nD τ).loc main_arg3)) := by
  unfold Pipeline.afterTail₀
  show StableHlo.after hostOps1 _ (Proc.devRef .tc main_v0) = _
  after_results
  rw [found_proj, found_rows, found_vals, found_cols]
  rfl

/-- On every device, from any memory with zero counters: every weakly fair execution of the kernel program terminates
    with its result at the aggregation of the launched arrays and the arguments unchanged. -/
theorem run : θ_run defs (onTc (τ := τ) (main (F := Ideal))) ⟨m, fun _ => 0, ρ⟩ fun r => ∀ c : Dev nD,
      r.2.mem ((c.tc : Thread nD τ).loc main_v0)
        = aggregate (contrib (projT (m ((c.tc : Thread nD τ).loc main_arg0)) (m ((c.tc : Thread nD τ).loc main_arg1)))
            (m ((c.tc : Thread nD τ).loc main_arg2)) (m ((c.tc : Thread nD τ).loc main_arg4))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Proj

end
-- ==== Proof.LibGather2.lean ====
/-
  `stablehlo.gather` of a RANK-2 operand along ONE axis, read at an index.

  Two layouts of the same operation. A ROW gather is what `x[idx]` of an array `x : [N, D]` at an integer vector
  `idx : [R]` lowers to (the indices carried as `[R, 1]`): result element `(e, d)` is `x` at row `idx[e]`, column `d`.
  A COLUMN gather is `x[:, idx]` of `x : [D, N]`: result element `(d, e)` is `x` at row `d`, column `idx[e]`.
  In both the start index is read as a signed integer and clamped into `[0, N − 1]` (the slice on the gathered axis
  has one element), and the other axis is copied through. So the two gathers of an array and of its transpose, at the
  same index vector, are transposes of each other — which is what lets a kernel keep an array row-major where its
  reference keeps it column-major.
-/
import Idealize.ShloMosaic.Lib.ValueIdx

noncomputable section

namespace Idealize.ShloMosaic.Gather2

open Idealize.ShloMosaic Idealize.ShloMosaic.ValueIdx

variable {α : Type}

/-- The clamped start: a word read as a signed integer, negative values to `0`, values past the last row to it. -/
abbrev clampIdx {w : Nat} (N : Nat) (hN : 0 < N) (v : BitVec w) : Fin N := ⟨min v.toInt.toNat (N - 1), by omega⟩

/-! ## The row gather -/

/-- Dimension numbers of `x[idx]` for `x : [N, D]`, indices `[R, 1]`, result `[R, D]`: axis 0 collapsed and named by
    the start index, axis 1 an offset axis copied whole. -/
abbrev rowDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows
variable {N R D w : Nat} (hN : 0 < N)
  (wf : GatherDims.WF ⟨2, ![N, D]⟩ ⟨2, ![R, 1]⟩ ⟨2, ![R, D]⟩ [1] [0] [] [0] [] 1 ![1, D])
  (idx : IVec ⟨2, ![R, 1]⟩ w) (e : Fin R) (d : Fin D)

/-- On the gathered axis the operand coordinate is the clamped start index: no batching, no offset. -/
theorem rows_axis0 :
    (rowDims N R D wf).start (ix2 e d) idx 0 + (rowDims N R D wf).batchCoord (ix2 e d) 0
      + (rowDims N R D wf).offCoord (ix2 e d) 0 = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R D wf).startIndexMap from List.mem_singleton.mpr rfl)]
  have hsi : (rowDims N R D wf).siIdx (ix2 e d) ⟨List.idxOf (0 : Fin 2) (rowDims N R D wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the copied axis it is the result's own coordinate: the start is `0` there. -/
theorem rows_axis1 :
    (rowDims N R D wf).start (ix2 e d) idx 1 + (rowDims N R D wf).batchCoord (ix2 e d) 1
      + (rowDims N R D wf).offCoord (ix2 e d) 1 = d.val := by
  rw [GatherDims.batchCoord_eq_zero _ _ _ List.not_mem_nil]
  unfold GatherDims.start
  rw [dif_neg (fun h => absurd (List.mem_singleton.mp h) (show (1 : Fin 2) ≠ 0 by decide))]
  unfold GatherDims.offCoord
  rw [dif_pos ((GatherDims.mem_sKept _ _).mpr ⟨fun h => absurd (List.mem_singleton.mp h) (show (1 : Fin 2) ≠ 0 by decide), List.not_mem_nil⟩)]
  simp only [Nat.zero_add]
  rfl

/-- THE ROW GATHER AT `(e, d)`: the operand at row `idx[e, 0]` (signed, clamped), column `d`. -/
theorem gather_rows_apply (x : (⟨2, ![N, D]⟩ : Shape).Idx → α) :
    Host.gather (rowDims N R D wf) x idx (ix2 e d)
      = x (ix2 (clampIdx N hN (idx (ix2 e ⟨0, Nat.one_pos⟩))) d) := by
  unfold Host.gather
  congr 1
  funext a
  refine Fin.ext ?_
  match a with
  | ⟨0, _⟩ => exact rows_axis0 wf idx e d
  | ⟨1, _⟩ => exact rows_axis1 wf idx e d

end Rows

/-! ## The column gather -/

/-- Dimension numbers of `x[:, idx]` for `x : [D, N]`, indices `[R, 1]`, result `[D, R]`: axis 1 collapsed and named
    by the start index, axis 0 an offset axis copied whole. -/
abbrev colDims (N R D : Nat) (wf : GatherDims.WF ⟨2, ![D, N]⟩ ⟨2, ![R, 1]⟩ ⟨2, ![D, R]⟩ [0] [1] [] [1] [] 1 ![D, 1]) :
    GatherDims ⟨2, ![D, N]⟩ ⟨2, ![R, 1]⟩ ⟨2, ![D, R]⟩ where
  offsetDims := [0]
  collapsedSliceDims := [1]
  operandBatchingDims := []
  startIndicesBatchingDims := []
  startIndexMap := [1]
  indexVectorDim := 1
  sliceSizes := ![D, 1]
  wf := wf

section Cols
variable {N R D w : Nat} (hN : 0 < N)
  (wf : GatherDims.WF ⟨2, ![D, N]⟩ ⟨2, ![R, 1]⟩ ⟨2, ![D, R]⟩ [0] [1] [] [1] [] 1 ![D, 1])
  (idx : IVec ⟨2, ![R, 1]⟩ w) (e : Fin R) (d : Fin D)

/-- On the copied axis the operand coordinate is the result's own. -/
theorem cols_axis0 :
    (colDims N R D wf).start (ix2 d e) idx 0 + (colDims N R D wf).batchCoord (ix2 d e) 0
      + (colDims N R D wf).offCoord (ix2 d e) 0 = d.val := by
  rw [GatherDims.batchCoord_eq_zero _ _ _ List.not_mem_nil]
  unfold GatherDims.start
  rw [dif_neg (fun h => absurd (List.mem_singleton.mp h) (show (0 : Fin 2) ≠ 1 by decide))]
  unfold GatherDims.offCoord
  rw [dif_pos ((GatherDims.mem_sKept _ _).mpr ⟨fun h => absurd (List.mem_singleton.mp h) (show (0 : Fin 2) ≠ 1 by decide), List.not_mem_nil⟩)]
  simp only [Nat.zero_add]
  rfl

/-- On the gathered axis it is the clamped start index. -/
theorem cols_axis1 :
    (colDims N R D wf).start (ix2 d e) idx 1 + (colDims N R D wf).batchCoord (ix2 d e) 1
      + (colDims N R D wf).offCoord (ix2 d e) 1 = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims N R D wf).startIndexMap from List.mem_singleton.mpr rfl)]
  have hsi : (colDims N R D wf).siIdx (ix2 d e) ⟨List.idxOf (1 : Fin 2) (colDims N R D wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- THE COLUMN GATHER AT `(d, e)`: the operand at row `d`, column `idx[e, 0]` (signed, clamped). -/
theorem gather_cols_apply (x : (⟨2, ![D, N]⟩ : Shape).Idx → α) :
    Host.gather (colDims N R D wf) x idx (ix2 d e)
      = x (ix2 d (clampIdx N hN (idx (ix2 e ⟨0, Nat.one_pos⟩)))) := by
  unfold Host.gather
  congr 1
  funext a
  refine Fin.ext ?_
  match a with
  | ⟨0, _⟩ => exact cols_axis0 wf idx e d
  | ⟨1, _⟩ => exact cols_axis1 wf idx e d

end Cols

end Idealize.ShloMosaic.Gather2

end
-- ==== Proof.Bridge.lean ====
/-
  The kernel's aggregation is the reference's.

  The reference projects with a dense row per row, `y[d, n] = Σ_k x[d, k] · weight[n, k]`, gathers COLUMNS of `y` at the
  edges' source nodes, scales, transposes to an edge per row, and sums by destination. The kernel projects with a node
  per row, `yT[n, d] = Σ_k weight[n, k] · x[d, k]`, gathers ROWS of `yT` at the same source nodes and scales: an edge
  per row already. The two projections are transposes of each other because the product of extended reals commutes
  term by term; the two gathers clamp the same start index into the same range of 32768 nodes; so edge `e`'s
  contribution at dense row `d` is the same extended real on both sides, and from there on the two programs apply the
  same sum by destination and the same transpose.
-/
import proofs.«431387_j58128087384147_3_alg».proof.Proof.Aggregate
import proofs.«431387_j58128087384147_3_alg».proof.Proof.LibGather2
import proofs.«431387_j58128087384147_3_alg».proof.Proof.Gen.ReferenceIdeal.Read

noncomputable section

namespace Cert.Bridge

open Idealize.ShloMosaic Idealize.ShloMosaic.ValueIdx Idealize.ShloMosaic.Gather2
open Cert.KernelIdeal.Proj Cert.ReferenceIdeal.Read

variable (x : Vec Ideal Cert.KernelIdeal.S128x1024 .f32) (w : Vec Ideal Cert.KernelIdeal.S32768x1024 .f32)
  (rows cols : IVec Cert.KernelIdeal.S524288 32) (vals : Vec Ideal Cert.KernelIdeal.S524288 .f32)

/-- Both programs wrap and lay out the source indices by the same operations. -/
theorem wrap_eq : wrapRows rows = val_main_v6 (F := Ideal) rows := rfl

/-- The kernel's gather reads a row of its operand at the clamped source index. -/
theorem gatherK (yT : Vec Ideal Cert.KernelIdeal.S32768x128 .bf16) (idx : IVec Cert.KernelIdeal.S524288x1 32) (e : Fin 524288) (d : Fin 128) :
    Host.gather Cert.KernelIdeal.gather_S32768x128_S524288x1_S524288x128_1_0_n_n_0_1_1128 yT idx (ix2 e d)
      = yT (ix2 (clampIdx 32768 (by decide) (idx (ix2 e ⟨0, Nat.one_pos⟩))) d) :=
  gather_rows_apply (N := 32768) (R := 524288) (D := 128) (by decide)
    Cert.KernelIdeal.Facts₀.gather_S32768x128_S524288x1_S524288x128_1_0_n_n_0_1_1128_wf idx e d yT

/-- The reference's gather reads a column of its operand at the clamped source index. -/
theorem gatherR (y : Vec Ideal Cert.ReferenceIdeal.S128x32768 .f32) (idx : IVec Cert.ReferenceIdeal.S524288x1 32) (e : Fin 524288) (d : Fin 128) :
    Host.gather Cert.ReferenceIdeal.gather_S128x32768_S524288x1_S128x524288_0_1_n_n_1_1_1281 y idx (ix2 d e)
      = y (ix2 d (clampIdx 32768 (by decide) (idx (ix2 e ⟨0, Nat.one_pos⟩)))) :=
  gather_cols_apply (N := 32768) (R := 524288) (D := 128) (by decide)
    Cert.ReferenceIdeal.Facts₀.gather_S128x32768_S524288x1_S128x524288_0_1_n_n_1_1_1281_wf idx e d y

/-- The kernel's edge weights, laid out an edge per row and repeated along the dense rows: entry `(e, d)` is `vals[e]`. -/
theorem valsK (e : Fin 524288) (d : Fin 128) :
    broadcastInDim Cert.KernelIdeal.S524288x128 ![0, 1] Cert.KernelIdeal.Facts₀.bcast_S524288x1_S524288x128_0_1
      (broadcastInDim Cert.KernelIdeal.S524288x1 ![0] Cert.KernelIdeal.Facts₀.bcast_S524288_S524288x1_0 vals) (ix2 e d) = vals (ix1 e) := by
  rw [broadcastInDim_apply _ Cert.KernelIdeal.Facts₀.bcast_S524288x1_S524288x128_0_1 _ (ix2 e d) (ix2 e ⟨0, Nat.one_pos⟩) (fun a => match a with
    | ⟨0, _⟩ => by show e.val = if (524288 : Nat) = 1 then 0 else e.val; rw [if_neg (by decide)]
    | ⟨1, _⟩ => by show 0 = if (1 : Nat) = 1 then 0 else d.val; rw [if_pos rfl])]
  exact broadcastInDim_apply _ Cert.KernelIdeal.Facts₀.bcast_S524288_S524288x1_0 vals (ix2 e ⟨0, Nat.one_pos⟩) (ix1 e) (fun a => match a with
    | ⟨0, _⟩ => by show e.val = if (524288 : Nat) = 1 then 0 else e.val; rw [if_neg (by decide)])

/-- The reference's, laid out a dense row per row: entry `(d, e)` is `vals[e]`. -/
theorem valsR (e : Fin 524288) (d : Fin 128) : val_main_v9 (F := Ideal) vals (ix2 d e) = vals (ix1 e) := by
  rw [val_main_v9_apply, val_main_v8_apply]
  exact congrArg vals (funext fun a => by match a with | ⟨0, _⟩ => rfl)

/-- The two projections are transposes of each other: the products commute term by term. -/
theorem proj_eq_dot (n : Fin 32768) (d : Fin 128) : projT x w (ix2 n d) = val_main_v0 (F := Ideal) x w (ix2 d n) := by
  rw [val_main_v0_apply]
  unfold projT
  refine Finset.sum_congr rfl fun k _ => ?_
  have hl : lidx_main_v0 (ix2 d n) k = ix2 d k := funext fun a => by match a with | ⟨0, _⟩ => rfl | ⟨1, _⟩ => rfl
  have hr : ridx_main_v0 (ix2 d n) k = ix2 n k := funext fun a => by match a with | ⟨0, _⟩ => rfl | ⟨1, _⟩ => rfl
  rw [hl, hr]
  exact mul_comm _ _

/-- EDGE BY EDGE the kernel's contributions are the reference's. -/
theorem contrib_eq : contrib (projT x w) rows vals = val_main_v11 (F := Ideal) x w rows vals := by
  funext j
  obtain ⟨e, d, rfl⟩ : ∃ (e : Fin 524288) (d : Fin 128), j = ix2 e d := ⟨j 0, j 1, eq_ix2 j⟩
  have hi : idx_main_v11 (ix2 e d) = ix2 d e := funext fun a => by match a with | ⟨0, _⟩ => rfl | ⟨1, _⟩ => rfl
  rw [val_main_v11_apply, val_main_v10_apply, hi, valsR]
  unfold val_main_v7
  rw [gatherR, ← wrap_eq, ← proj_eq_dot]
  unfold contrib
  rw [mulf_apply, extf_apply, gatherK, valsK]
  rfl

/-- So the whole aggregation is the reference's result. -/
theorem aggregate_eq : aggregate (contrib (projT x w) rows vals) cols = val_main_v15 (F := Ideal) x w rows cols vals := by
  rw [contrib_eq]
  rfl

end Cert.Bridge

end
-- ==== Proof.lean ====
/-
  A graph convolution: `out = (x · weightᵀ) · Â` with `Â` a sparse matrix given by its 524288 edges
  (source node, destination node, weight) over 32768 nodes, `x : [128, 1024]`, `weight : [32768, 1024]`.

  The reference computes `y[d, n] = Σ_k x[d, k] · weight[n, k]` on the host, gathers the columns of `y` at the edges'
  source nodes, scales each by its edge's weight, and adds the columns with the same destination node.
  The kernel program computes the same projection TRANSPOSED in a pallas_call — a node per row, the 32768 nodes in
  sixteen tiles of 2048, `x` resident, the operands narrowed to bf16 and the product accumulated from zero —
  and then does the sparse part on the host over rows instead of columns, transposing once at the end.

  At the ideal values a change of float format is the identity and a matrix product is the exact sum, so the kernel's
  array is `yT[n, d] = Σ_k weight[n, k] · x[d, k]`: the reference's `y` transposed, because the product of two extended
  reals commutes (no distributivity, no cancelling: nothing here needs the inputs finite). Both programs wrap a
  negative source index by the node count and both gathers clamp it into the node range, one reading a row of `yT`,
  the other a column of `y`: the same entry. From the edges' contributions on — an edge per row — the two programs
  apply the same sum by destination into a zero array and the same transpose.

  The modules: Proof/LibGather2 (a rank-2 gather along one axis read at an index, both layouts), Proof/ProjBlock (one
  grid point's stored block at an element), Proof/ProjArray (the sixteen blocks tile the projection), Proof/Aggregate
  (the sparse part as functions of the arrays), Proof/ProjRun (the kernel program's run, result named), Proof/Bridge
  (edge by edge the two sides agree). The kernel's frames and the reference's run are the generated ones.
-/
import proofs.«431387_j58128087384147_3_alg».proof.Defs
import proofs.«431387_j58128087384147_3_alg».proof.Proof.Gen.Kernel
import proofs.«431387_j58128087384147_3_alg».proof.Proof.Gen.Kernel.Frame
import proofs.«431387_j58128087384147_3_alg».proof.Proof.Gen.KernelIdeal
import proofs.«431387_j58128087384147_3_alg».proof.Proof.Gen.KernelIdeal.Frame
import proofs.«431387_j58128087384147_3_alg».proof.Proof.Gen.ReferenceIdeal
import proofs.«431387_j58128087384147_3_alg».proof.Proof.Gen.Pre_finite_inputs
import proofs.«431387_j58128087384147_3_alg».proof.Proof.Gen.ReferenceIdeal.Run
import proofs.«431387_j58128087384147_3_alg».proof.Proof.Gen.ReferenceIdeal.Read
import proofs.«431387_j58128087384147_3_alg».proof.Proof.ProjRun
import proofs.«431387_j58128087384147_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the five arguments both programs end with the aggregation of the edges' contributions
    over the projection: the kernel program by its run, the reference by its run and the edge-by-edge agreement. -/
theorem algebraic : Cert.algebraic_KernelIdeal_ReferenceIdeal := by
  intro m ρ m' ρ' _ hagree
  refine ⟨_, Cert.KernelIdeal.Proj.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.Read.val_main_v15_eq _ _ _ _ _).trans (Cert.Bridge.aggregate_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
